-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x8192 : Shape := ⟨2, ![4096, 8192]⟩
abbrev S_ : Shape := ⟨0, ![]⟩

class Facts : Prop where
  bcast_S_S4096x8192 : S_.BroadcastsInDim S4096x8192 (![] : Fin 0 → Fin S4096x8192.rank)
  reducesTo_S4096x8192_S_d0_1 : S4096x8192.ReducesTo [0, 1] S_
  h_S_ : 0 < S_.numel

variable [Facts]

def fn {F : FTy → Type} [FloatOps F] (main_arg0 : FVec F S4096x8192 .f32) (main_arg1 : IVec S4096x8192 32) : IVec S_ 1 :=
  let main_v0 : FVec F S4096x8192 .f32 := Host.absf main_arg0
  let main_cst : FVec F S_ .f32 := constant S_ .f32 0x7F800000#32
  let main_v1 : FVec F S4096x8192 .f32 := broadcastInDim S4096x8192 ![] bcast_S_S4096x8192 main_cst
  let main_v2 : IVec S4096x8192 1 := cmpf .olt main_v0 main_v1
  let main_c : IVec S_ 1 := constantI S_ 1 1#1
  let main_v3 : IVec S_ 1 := (fun x v => Host.reduce IntOp.andi x v reducesTo_S4096x8192_S_d0_1 h_S_) main_v2 main_c
  main_v3
-- ==== Kernel.lean ====
abbrev S4096x8192 : Shape := ⟨2, ![4096, 8192]⟩
abbrev S128x8192 : Shape := ⟨2, ![128, 8192]⟩

abbrev nBuf : Space → Nat
  | .hbm => 3
  | .vmem => 6
  | .smem => 0
  | _ => 0

abbrev bufTy : (tb : Table) → Fin (tcTables nBuf tb) → BufTy
  | .hbm, ⟨0, _⟩ => ⟨S4096x8192, .f32⟩
  | .hbm, ⟨1, _⟩ => ⟨S4096x8192, .i32⟩
  | .hbm, ⟨2, _⟩ => ⟨S4096x8192, .f32⟩
  | .local _ .vmem, ⟨0, _⟩ => ⟨S128x8192, .f32⟩
  | .local _ .vmem, ⟨1, _⟩ => ⟨S128x8192, .f32⟩
  | .local _ .vmem, ⟨2, _⟩ => ⟨S128x8192, .i32⟩
  | .local _ .vmem, ⟨3, _⟩ => ⟨S128x8192, .i32⟩
  | .local _ .vmem, ⟨4, _⟩ => ⟨S128x8192, .f32⟩
  | .local _ .vmem, ⟨5, _⟩ => ⟨S128x8192, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x8192 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S128x8192_S128x8192_0_0 : ∀ a, (![0, 0] : Fin 2 → Nat) a + S128x8192.size a ≤ S128x8192.size a
  h_S128x8192 : 0 < S128x8192.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x8192.size a ≤ S4096x8192.size a
  hwx0_0 : ∀ i : grid0.Coords, EltTy.bits .f32 = 32 ∨ (Rect.block (s := S4096x8192) S128x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x8192.size a ≤ S4096x8192.size a
  hwx0_1 : ∀ i : grid0.Coords, EltTy.bits .i32 = 32 ∨ (Rect.block (s := S4096x8192) S128x8192.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x8192.size a ≤ S4096x8192.size a
  hwx0_2 : ∀ i : grid0.Coords, EltTy.bits .f32 = 32 ∨ (Rect.block (s := S4096x8192) S128x8192.size (cc0_transform_2 i) (hinb0_2 i)).WholeWords (EltTy.packing .f32)

variable [Facts₀]

abbrev win0_0 : Pipeline.Window sig grid0 :=
  Pipeline.Window.ofSpec (Memref.whole main_arg0) S128x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x8192.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x8192 : Shape := ⟨2, ![4096, 8192]⟩
abbrev S_ : Shape := ⟨0, ![]⟩

abbrev nBuf : Space → Nat
  | .hbm => 30
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S4096x8192, .i32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i1⟩
  | .hbm, ⟨6, _⟩ => ⟨S_, .i32⟩
  | .hbm, ⟨7, _⟩ => ⟨S_, .i32⟩
  | .hbm, ⟨8, _⟩ => ⟨S4096x8192, .i32⟩
  | .hbm, ⟨9, _⟩ => ⟨S4096x8192, .i32⟩
  | .hbm, ⟨10, _⟩ => ⟨S_, .i32⟩
  | .hbm, ⟨11, _⟩ => ⟨S4096x8192, .i32⟩
  | .hbm, ⟨12, _⟩ => ⟨S4096x8192, .i1⟩
  | .hbm, ⟨13, _⟩ => ⟨S_, .i32⟩
  | .hbm, ⟨14, _⟩ => ⟨S4096x8192, .i32⟩
  | .hbm, ⟨15, _⟩ => ⟨S4096x8192, .i1⟩
  | .hbm, ⟨16, _⟩ => ⟨S_, .i32⟩
  | .hbm, ⟨17, _⟩ => ⟨S_, .i1⟩
  | .hbm, ⟨18, _⟩ => ⟨S4096x8192, .i1⟩
  | .hbm, ⟨19, _⟩ => ⟨S4096x8192, .i1⟩
  | .hbm, ⟨20, _⟩ => ⟨S4096x8192, .i1⟩
  | .hbm, ⟨21, _⟩ => ⟨S4096x8192, .i32⟩
  | .hbm, ⟨22, _⟩ => ⟨S4096x8192, .i32⟩
  | .hbm, ⟨23, _⟩ => ⟨S4096x8192, .i32⟩
  | .hbm, ⟨24, _⟩ => ⟨S_, .i32⟩
  | .hbm, ⟨25, _⟩ => ⟨S4096x8192, .i32⟩
  | .hbm, ⟨26, _⟩ => ⟨S4096x8192, .i1⟩
  | .hbm, ⟨27, _⟩ => ⟨S4096x8192, .f32⟩
  | .hbm, ⟨28, _⟩ => ⟨S4096x8192, .f32⟩
  | .hbm, ⟨29, _⟩ => ⟨S4096x8192, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_call0_c : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_c_1 : Ref sig .tc := ⟨.hbm, 10, rfl⟩
abbrev main_call0_v5 : Ref sig .tc := ⟨.hbm, 11, rfl⟩
abbrev main_call0_v6 : Ref sig .tc := ⟨.hbm, 12, rfl⟩
abbrev main_call0_c_2 : Ref sig .tc := ⟨.hbm, 13, rfl⟩
abbrev main_call0_v7 : Ref sig .tc := ⟨.hbm, 14, rfl⟩
abbrev main_call0_v8 : Ref sig .tc := ⟨.hbm, 15, rfl⟩
abbrev main_call0_c_3 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_v0 : Ref sig .tc := ⟨.hbm, 23, rfl⟩
abbrev main_c_0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩

abbrev nD : Nat := 1
abbrev τ : Topo := Topo.v7x

variable {F : FTy → Type} [FloatOps F]

class Facts₀ : Prop where
  bcast_S_S4096x8192 : S_.BroadcastsInDim S4096x8192 (![] : Fin 0 → Fin S4096x8192.rank)

variable [Facts₀]

class Facts : Prop extends Facts₀ where

variable [Facts]
-- ==== Proof.RefRun.lean ====
/-
  The reference program's run, read back as one function of its two argument arrays.

  The reference computes `where(idx % 2 == 0, sin x, cos x)`.  Its `%` is `jnp.remainder`, a helper function the
  program calls: it first guards the divisor (`where(d == 0, 1, d)`, here with `d = 2`), takes the TRUNCATED
  remainder `r = idx rem d` (sign of the dividend), and turns it into the FLOORED one (sign of the divisor):
  `r + d` where `r ≠ 0` and the signs of `r` and `d` differ, `r` elsewhere.  @main then compares with zero, takes
  the sine and the cosine of `x`, and selects.  Below, the program is written as the straight line of its 28 host
  operations (the two helpers' bodies in place of their calls, over the buffers of each call), every weakly fair
  execution of a straight line terminates with each buffer at the fold of the operations' results, and that fold
  at the result buffer is `refOut x idx`: the composition just described, with every intermediate array named.
-/
import proofs.«407393_j72146860638527_3_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The result as a function of the arguments -/

/-- A rank-0 word spread over the whole array. -/
abbrev spread {w : Nat} (v : IVec S_ w) : IVec S4096x8192 w := broadcastInDim S4096x8192 ![] bcast_S_S4096x8192 v

/-- The divisor after the helper's guard against a zero divisor: `where(2 == 0, 1, 2)`, a rank-0 word. -/
def divisor : IVec S_ 32 :=
  select (cmpi .eq (id (constantI S_ 32 2#32)) (constantI S_ 32 0#32)) (constantI S_ 32 1#32) (id (constantI S_ 32 2#32))

/-- The truncated remainder of every index by the divisor. -/
def truncRem (idx : IVec S4096x8192 32) : IVec S4096x8192 32 := Host.remsi idx (spread divisor)

/-- The floored remainder: the truncated one, plus the divisor where it is non-zero and of the other sign. -/
def floorRem (idx : IVec S4096x8192 32) : IVec S4096x8192 32 :=
  select
    (andi (cmpi .ne (cmpi .slt (truncRem idx) (spread (constantI S_ 32 0#32))) (spread (cmpi .slt divisor (constantI S_ 32 0#32))))
      (cmpi .ne (truncRem idx) (spread (constantI S_ 32 0#32))))
    (addi (truncRem idx) (spread divisor))
    (truncRem idx)

/-- What the reference returns: the sine where the floored remainder by 2 is zero, the cosine elsewhere. -/
def refOut (x : FVec F S4096x8192 .f32) (idx : IVec S4096x8192 32) : FVec F S4096x8192 .f32 :=
  select (cmpi .eq (floorRem idx) (spread (constantI S_ 32 0#32))) (Host.sin x) (Host.cos x)

/-! ## The program as a straight line -/

/-- @main's operations in order, the calls unfolded: the divisor's constant; `remainder`'s twenty-one (the divisor
    converted to its own type, the guard's zero, comparison and one, `_where`'s select, the divisor spread, the
    truncated remainder; then zero spread and "remainder ≠ 0", zero spread and "remainder < 0", "divisor < 0" spread,
    the two signs compared, the conjunction, the divisor spread again, the sum, the select); @main's zero, its spread,
    the comparison, the sine, the cosine; and the second `_where`'s select. -/
abbrev ops : List (HloOp τ sig (Elt F)) :=
  [ nullary main_c (constantI S_ 32 2#32),
    TRef.unary (.of main_c) main_call0.v0 id,
    TRef.nullary main_call0.c (constantI S_ 32 0#32),
    TRef.binary main_call0.v0 main_call0.c main_call0.v1 (cmpi .eq),
    TRef.nullary main_call0.c_0 (constantI S_ 32 1#32),
    TRef.ternary main_call0.v1 main_call0.c_0 main_call0.v0 main_call0.call0.v0 select,
    TRef.unary main_call0.call0.v0 main_call0.v3 (broadcastInDim S4096x8192 ![] bcast_S_S4096x8192),
    TRef.binary (.of main_arg1) main_call0.v3 main_call0.v4 Host.remsi,
    TRef.nullary main_call0.c_1 (constantI S_ 32 0#32),
    TRef.unary main_call0.c_1 main_call0.v5 (broadcastInDim S4096x8192 ![] bcast_S_S4096x8192),
    TRef.binary main_call0.v4 main_call0.v5 main_call0.v6 (cmpi .ne),
    TRef.nullary main_call0.c_2 (constantI S_ 32 0#32),
    TRef.unary main_call0.c_2 main_call0.v7 (broadcastInDim S4096x8192 ![] bcast_S_S4096x8192),
    TRef.binary main_call0.v4 main_call0.v7 main_call0.v8 (cmpi .slt),
    TRef.nullary main_call0.c_3 (constantI S_ 32 0#32),
    TRef.binary main_call0.call0.v0 main_call0.c_3 main_call0.v9 (cmpi .slt),
    TRef.unary main_call0.v9 main_call0.v10 (broadcastInDim S4096x8192 ![] bcast_S_S4096x8192),
    TRef.binary main_call0.v8 main_call0.v10 main_call0.v11 (cmpi .ne),
    TRef.binary main_call0.v11 main_call0.v6 main_call0.v12 andi,
    TRef.unary main_call0.call0.v0 main_call0.v13 (broadcastInDim S4096x8192 ![] bcast_S_S4096x8192),
    TRef.binary main_call0.v4 main_call0.v13 main_call0.v14 addi,
    TRef.ternary main_call0.v12 main_call0.v14 main_call0.v4 main_call0.v15 select,
    nullary main_c_0 (constantI S_ 32 0#32),
    unary main_c_0 main_v1 (broadcastInDim S4096x8192 ![] bcast_S_S4096x8192 : (⟨S_, .i32⟩ : BufTy).Contents (Elt F) → (⟨S4096x8192, .i32⟩ : BufTy).Contents (Elt F)),
    binary main_v0 main_v1 main_v2 (cmpi .eq : (⟨S4096x8192, .i32⟩ : BufTy).Contents (Elt F) → (⟨S4096x8192, .i32⟩ : BufTy).Contents (Elt F) → (⟨S4096x8192, .i1⟩ : BufTy).Contents (Elt F)),
    unary main_arg0 main_v3 (Host.sin : (⟨S4096x8192, .f32⟩ : BufTy).Contents (Elt F) → (⟨S4096x8192, .f32⟩ : BufTy).Contents (Elt F)),
    unary main_arg0 main_v4 (Host.cos : (⟨S4096x8192, .f32⟩ : BufTy).Contents (Elt F) → (⟨S4096x8192, .f32⟩ : BufTy).Contents (Elt F)),
    TRef.ternary (.of main_v2) (.of main_v3) (.of main_v4) main_call1.v0 select ]

-- twenty-eight binds re-associated under the chain
set_option maxRecDepth 1024 in
/-- @main is that straight line: the helpers' definitions unfolded at their calls and the calls' buffer records at
    their fields, both sides are one chain of host steps once sequencing is reassociated. -/
theorem main_eq (c : Dev nD) : main (F := F) c = seq ops := by
  simp only [main, fn_remainder.body, fn_where.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., nullary_bufs_sub .., binary_bufs_sub .., nullary_bufs_sub .., ternary_bufs_sub ..,
    unary_bufs_sub .., binary_bufs_sub .., nullary_bufs_sub .., unary_bufs_sub .., binary_bufs_sub .., nullary_bufs_sub ..,
    unary_bufs_sub .., binary_bufs_sub .., nullary_bufs_sub .., binary_bufs_sub .., unary_bufs_sub .., binary_bufs_sub ..,
    binary_bufs_sub .., unary_bufs_sub .., binary_bufs_sub .., ternary_bufs_sub .., nullary_bufs_sub .., unary_bufs_sub ..,
    binary_bufs_sub .., unary_bufs_sub .., unary_bufs_sub .., ternary_bufs_sub ..⟩

/-! ## The fold at the result and at the arguments -/

/-- The fold of the operations' results at the result buffer is `refOut` of the arguments' contents: each operation
    read at its own result buffer gives its function of its operands' contents, at any other buffer what was there;
    the typed references' transports are identities at these literal buffers. -/
theorem out_eq (V : Valuation τ sig (Elt F)) :
    after ops V (main_v5 : DevRef τ sig) = refOut (V (main_arg0 : DevRef τ sig)) (V (main_arg1 : DevRef τ sig)) := by
  after_results_simp
  rfl

/-- No operation writes the first argument. -/
theorem arg0_eq (V : Valuation τ sig (Elt F)) : after ops V (main_arg0 : DevRef τ sig) = V (main_arg0 : DevRef τ sig) := by
  after_results_simp

/-- No operation writes the second argument. -/
theorem arg1_eq (V : Valuation τ sig (Elt F)) : after ops V (main_arg1 : DevRef τ sig) = V (main_arg1 : DevRef τ sig) := by
  after_results_simp

/-! ## The run -/

/-- For any float values, from any memory with zero counters: every weakly fair execution of the reference
    terminates with its result at `refOut` of the argument arrays, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v5)
          = refOut (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v5).trans (out_eq _), (h c main_arg0).trans (arg0_eq _),
      (h c main_arg1).trans (arg1_eq _)⟩)
    (run_seq scopedRefs_eq scopedSems_eq defs main (fun _ => ops) main_eq (fun _ => ops_sub) m ρ)

end Cert.ReferenceIdeal.RefRun

end
-- ==== Proof.Parity.lean ====
/-
  Parity of a 32-bit two's-complement word, computed two ways.

  The kernel tests the lowest bit: `x &&& 1 = 0`.  The reference takes the floored remainder by 2 the way
  `jnp.remainder` spells it: first the truncated remainder `r = x srem 2`, which has the sign of `x` and so lies
  in {-1, 0, 1}; then, where `r` is non-zero and its sign differs from the divisor's (the divisor 2 is positive,
  so: where `r` is negative), `r + 2`; otherwise `r`; and finally the test `… = 0`.  The corrected remainder is
  0 for an even word and 1 for an odd one, whatever the sign, and the lowest bit is the same number: both tests
  say "x is even".  The proof splits on the sign bit, reads the truncated remainder as an unsigned remainder of
  `x` or of `-x`, and uses that negation modulo 2^32 keeps parity because 2^32 is even.
-/
import Idealize.ShloMosaic.PureOps

namespace Cert.Parity

open Idealize.ShloMosaic

/-- The lowest bit of a word, as a number: the word's unsigned value modulo 2. -/
theorem toNat_and_one (x : BitVec 32) : (x &&& 1#32).toNat = x.toNat % 2 := by
  rw [BitVec.toNat_and]
  exact Nat.and_one_is_mod x.toNat

/-- The truncated remainder by 2 beside the lowest bit, in the three cases there are: an even word has remainder 0
    and bit 0; an odd non-negative word remainder 1 and bit 1; an odd negative word remainder -1 and bit 1. -/
theorem srem_two (x : BitVec 32) :
    (x.srem 2#32 = 0#32 ∧ x &&& 1#32 = 0#32)
    ∨ (x.srem 2#32 = 1#32 ∧ x &&& 1#32 = 1#32)
    ∨ (x.srem 2#32 = 4294967295#32 ∧ x &&& 1#32 = 1#32) := by
  have hbit := toNat_and_one x
  have hlt : x.toNat < 2 ^ 32 := x.isLt
  cases hm : x.msb
  · -- a non-negative word: the truncated remainder is the unsigned one
    have hr : x.srem 2#32 = x % 2#32 := by
      rw [BitVec.srem_eq, hm, show (2#32 : BitVec 32).msb = false from rfl]
    have hrn : (x % 2#32).toNat = x.toNat % 2 := BitVec.toNat_umod
    rcases Nat.mod_two_eq_zero_or_one x.toNat with h | h
    · refine Or.inl ⟨?_, ?_⟩
      · rw [hr]; apply BitVec.eq_of_toNat_eq; rw [hrn, h]; rfl
      · apply BitVec.eq_of_toNat_eq; rw [hbit, h]; rfl
    · refine Or.inr (Or.inl ⟨?_, ?_⟩)
      · rw [hr]; apply BitVec.eq_of_toNat_eq; rw [hrn, h]; rfl
      · apply BitVec.eq_of_toNat_eq; rw [hbit, h]; rfl
  · -- a negative word: the truncated remainder is minus the unsigned remainder of `-x`, and `-x` has `x`'s parity
    have hr : x.srem 2#32 = -((-x) % 2#32) := by
      rw [BitVec.srem_eq, hm, show (2#32 : BitVec 32).msb = false from rfl]
    have hn : (-x).toNat = (2 ^ 32 - x.toNat) % 2 ^ 32 := BitVec.toNat_neg x
    have hu : ((-x) % 2#32).toNat = (-x).toNat % 2 := BitVec.toNat_umod
    rcases Nat.mod_two_eq_zero_or_one x.toNat with h | h
    · have hz : (-x) % 2#32 = 0#32 := by
        apply BitVec.eq_of_toNat_eq; rw [hu, hn]; show _ = 0; omega
      refine Or.inl ⟨?_, ?_⟩
      · rw [hr, hz]; rfl
      · apply BitVec.eq_of_toNat_eq; rw [hbit, h]; rfl
    · have ho : (-x) % 2#32 = 1#32 := by
        apply BitVec.eq_of_toNat_eq; rw [hu, hn]; show _ = 1; omega
      refine Or.inr (Or.inr ⟨?_, ?_⟩)
      · rw [hr, ho]; rfl
      · apply BitVec.eq_of_toNat_eq; rw [hbit, h]; rfl

/-- With the divisor 2 the host's signed remainder is at neither of its corners (a zero divisor; the least word
    by -1), so it is the truncated remainder. -/
theorem remsi_two (x : BitVec 32) : IntOp.remsi .host x 2#32 = x.srem 2#32 := by
  unfold IntOp.remsi
  rw [if_neg]
  rintro (h | ⟨-, h⟩) <;> exact absurd h (by decide)

/-- The reference's parity test is the kernel's: "the floored remainder of `x` by 2 is zero" and "the lowest bit of
    `x` is zero" are the same one-bit word, for every 32-bit `x`. -/
theorem floorMod_two_isZero (x : BitVec 32) :
    IntOp.cmpi .eq
        (Scalar.select
          (IntOp.andi
            (IntOp.cmpi .ne (IntOp.cmpi .slt (IntOp.remsi .host x 2#32) 0#32) (IntOp.cmpi .slt (2#32 : BitVec 32) 0#32))
            (IntOp.cmpi .ne (IntOp.remsi .host x 2#32) 0#32))
          (IntOp.addi (IntOp.remsi .host x 2#32) 2#32)
          (IntOp.remsi .host x 2#32))
        0#32
      = IntOp.cmpi .eq (IntOp.andi x 1#32) 0#32 := by
  rw [remsi_two]
  unfold IntOp.andi
  rcases srem_two x with ⟨h, k⟩ | ⟨h, k⟩ | ⟨h, k⟩ <;> rw [h, k] <;> rfl

end Cert.Parity
-- ==== Proof.Bridge.lean ====
/-
  The two programs compute one function.

  At an index `i` the kernel's output array holds `sin (x i)` where the lowest bit of `idx i` is zero and `cos (x i)`
  elsewhere; the reference's holds `sin (x i)` where the floored remainder of `idx i` by 2 is zero and `cos (x i)`
  elsewhere.  The sine and the cosine are the same functions of an extended real on both sides (the kernel's
  `math.sin` / `math.cos` and the host's `sine` / `cosine` read alike over the extended reals), and the two tests are
  the same one-bit word for every 32-bit index (`Cert.Parity.floorMod_two_isZero`): no property of `x` is used, so
  the equality holds at the infinities as well.
-/
import proofs.«407393_j72146860638527_3_alg».proof.Proof.RefRun
import proofs.«407393_j72146860638527_3_alg».proof.Proof.Parity
import proofs.«407393_j72146860638527_3_alg».proof.Proof.Gen.KernelIdeal.Value
import Idealize.ShloMosaic.PureOps.Ideal

noncomputable section

namespace Cert.Bridge

open Idealize.ShloMosaic Cert.ReferenceIdeal Cert.ReferenceIdeal.RefRun

/-- The guarded divisor is the word 2 (the guard `2 == 0` is false). -/
theorem divisor_apply (j : S_.Idx) : divisor j = 2#32 := rfl

/-- The reference's result is the kernel's closed form, as functions of the two argument arrays over the extended
    reals: index by index, the same select between the same sine and cosine on the same test. -/
theorem refOut_eq (x : FVec Ideal S4096x8192 .f32) (idx : IVec S4096x8192 32) :
    refOut (F := Ideal) x idx = Cert.KernelIdeal.Value.G2 (F := Ideal) x idx := by
  funext i
  simp only [refOut, floorRem, truncRem, spread, select, cmpi, andi, addi, Host.remsi, Host.sin, Host.cos,
    broadcastInDim, constantI, divisor_apply, Cert.KernelIdeal.Value.G2, Ideal.sin_def, Ideal.cos_def,
    Ideal.hostUnary_sin_def, Ideal.hostUnary_cos_def, Cert.Parity.floorMod_two_isZero]

end Cert.Bridge

end
-- ==== Proof.lean ====
/-
  Sine or cosine of `x`, chosen by the parity of an integer index: a Pallas kernel against its jnp reference.

  Both programs take `x : f32[4096, 8192]` and `idx : i32[4096, 8192]` and return, element by element, `sin x` where
  `idx` is even and `cos x` where it is odd.  The kernel walks the rows in 32 blocks of 128 and decides parity by the
  lowest bit, `idx & 1 == 0`; the reference decides it by the floored remainder, `idx % 2 == 0`.  Over the extended
  reals the sine and the cosine are the same functions in both programs, and the two parity tests agree on every
  32-bit word, negative ones included (Proof/Parity.lean), so the two results are equal as functions of the
  arguments (Proof/Bridge.lean) with no appeal to the finiteness of `x`.

  The five claims: the kernel's two frames are its generated frame certificates; the reference's frame is its run
  (Proof/RefRun.lean: the program as a straight line of host operations, its result the function `refOut`) with the
  result forgotten; the idealization rewrote nothing, so there is nothing to preserve; and for the algebraic claim the
  kernel's run ends with its output at the closed form `G2` of the arguments (the generated value leg), the
  reference's at `refOut` of arguments that agree, and `refOut = G2`.
-/
import proofs.«407393_j72146860638527_3_alg».proof.Defs
import proofs.«407393_j72146860638527_3_alg».proof.Proof.Gen.Kernel
import proofs.«407393_j72146860638527_3_alg».proof.Proof.Gen.Kernel.Skeleton
import proofs.«407393_j72146860638527_3_alg».proof.Proof.Gen.Kernel.Launch
import proofs.«407393_j72146860638527_3_alg».proof.Proof.Gen.Kernel.Points
import proofs.«407393_j72146860638527_3_alg».proof.Proof.Gen.Kernel.Frame
import proofs.«407393_j72146860638527_3_alg».proof.Proof.Gen.KernelIdeal
import proofs.«407393_j72146860638527_3_alg».proof.Proof.Gen.KernelIdeal.Skeleton
import proofs.«407393_j72146860638527_3_alg».proof.Proof.Gen.KernelIdeal.Launch
import proofs.«407393_j72146860638527_3_alg».proof.Proof.Gen.KernelIdeal.Points
import proofs.«407393_j72146860638527_3_alg».proof.Proof.Gen.KernelIdeal.Frame
import proofs.«407393_j72146860638527_3_alg».proof.Proof.Gen.KernelIdeal.Value
import proofs.«407393_j72146860638527_3_alg».proof.Proof.Gen.ReferenceIdeal
import proofs.«407393_j72146860638527_3_alg».proof.Proof.Gen.Pre_finite_inputs
import proofs.«407393_j72146860638527_3_alg».proof.Proof.RefRun
import proofs.«407393_j72146860638527_3_alg».proof.Proof.Bridge
import Idealize.ShloMosaic.Adequacy
import Idealize.ShloMosaic.Init

noncomputable section

namespace Cert.Proof

open Idealize.ShloMosaic Idealize.ShloMosaic.TcCoe Idealize.SL.Sem

/-- The kernel as printed runs, and leaves `x` and `idx` as it found them. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments alone: its run, with what it says of the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- From memories that agree on `x` and `idx`, both programs end with the array
    `i ↦ if idx i is even then sin (x i) else cos (x i)`: the kernel's closed form, which the reference's result equals. -/
theorem algebraic : Cert.algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2]
  exact Cert.Bridge.refOut_eq _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
